-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x7x512 : Shape := ⟨3, ![4096, 7, 512]⟩
abbrev S512x2048 : Shape := ⟨2, ![512, 2048]⟩
abbrev S2048 : Shape := ⟨1, ![2048]⟩
abbrev S7x2048 : Shape := ⟨2, ![7, 2048]⟩
abbrev S_ : Shape := ⟨0, ![]⟩

class Facts : Prop where
  bcast_S_S4096x7x512 : S_.BroadcastsInDim S4096x7x512 (![] : Fin 0 → Fin S4096x7x512.rank)
  reducesTo_S4096x7x512_S_d0_1_2 : S4096x7x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S7x2048 : S_.BroadcastsInDim S7x2048 (![] : Fin 0 → Fin S7x2048.rank)
  reducesTo_S7x2048_S_d0_1 : S7x2048.ReducesTo [0, 1] S_

variable [Facts]

def fn_part1 {F : FTy → Type} [FloatOps F] (main_v13 : IVec S_ 1) (main_v16 : IVec S7x2048 1) : IVec S_ 1 :=
  let main_c_5 : IVec S_ 1 := constantI S_ 1 1#1
  let main_v17 : IVec S_ 1 := (fun x v => Host.reduce IntOp.andi x v reducesTo_S7x2048_S_d0_1 h_S_) main_v16 main_c_5
  let main_v18 : IVec S_ 1 := andi main_v13 main_v17
  main_v18

def fn {F : FTy → Type} [FloatOps F] (main_arg0 : FVec F S4096x7x512 .f32) (main_arg1 : FVec F S512x2048 .f32) (main_arg2 : FVec F S2048 .f32) (main_arg3 : FVec F S7x2048 .f32) : IVec S_ 1 :=
  let main_v0 : FVec F S4096x7x512 .f32 := Host.absf main_arg0
  let main_cst : FVec F S_ .f32 := constant S_ .f32 0x7F800000#32
  let main_v1 : FVec F S4096x7x512 .f32 := broadcastInDim S4096x7x512 ![] bcast_S_S4096x7x512 main_cst
  let main_v2 : IVec S4096x7x512 1 := cmpf .olt main_v0 main_v1
  let main_c : IVec S_ 1 := constantI S_ 1 1#1
  let main_v3 : IVec S_ 1 := (fun x v => Host.reduce IntOp.andi x v reducesTo_S4096x7x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S7x2048 .f32 := Host.absf main_arg3
  let main_cst_4 : FVec F S_ .f32 := constant S_ .f32 0x7F800000#32
  let main_v15 : FVec F S7x2048 .f32 := broadcastInDim S7x2048 ![] bcast_S_S7x2048 main_cst_4
  let main_v16 : IVec S7x2048 1 := cmpf .olt main_v14 main_v15
  fn_part1 (F := F) main_v13 main_v16
-- ==== Kernel.lean ====
abbrev S4096x7x512 : Shape := ⟨3, ![4096, 7, 512]⟩
abbrev S512x2048 : Shape := ⟨2, ![512, 2048]⟩
abbrev S2048 : Shape := ⟨1, ![2048]⟩
abbrev S7x2048 : Shape := ⟨2, ![7, 2048]⟩
abbrev S1x2048 : Shape := ⟨2, ![1, 2048]⟩
abbrev S7x1x2048 : Shape := ⟨3, ![7, 1, 2048]⟩
abbrev S7x4096x512 : Shape := ⟨3, ![7, 4096, 512]⟩
abbrev S7x4096x2048 : Shape := ⟨3, ![7, 4096, 2048]⟩
abbrev S1x512x512 : Shape := ⟨3, ![1, 512, 512]⟩
abbrev S1x1x2048 : Shape := ⟨3, ![1, 1, 2048]⟩
abbrev S1x512x2048 : Shape := ⟨3, ![1, 512, 2048]⟩
abbrev S512x512 : Shape := ⟨2, ![512, 512]⟩
abbrev S4096x7x2048 : Shape := ⟨3, ![4096, 7, 2048]⟩
abbrev S_ : Shape := ⟨0, ![]⟩
abbrev S4096x7 : Shape := ⟨2, ![4096, 7]⟩

abbrev nBuf : Space → Nat
  | .hbm => 13
  | .vmem => 7
  | .smem => 0
  | _ => 0

abbrev bufTy : (tb : Table) → Fin (tcTables nBuf tb) → BufTy
  | .hbm, ⟨0, _⟩ => ⟨S4096x7x512, .f32⟩
  | .hbm, ⟨1, _⟩ => ⟨S512x2048, .f32⟩
  | .hbm, ⟨2, _⟩ => ⟨S2048, .f32⟩
  | .hbm, ⟨3, _⟩ => ⟨S7x2048, .f32⟩
  | .hbm, ⟨4, _⟩ => ⟨S1x2048, .f32⟩
  | .hbm, ⟨5, _⟩ => ⟨S7x2048, .f32⟩
  | .hbm, ⟨6, _⟩ => ⟨S7x2048, .f32⟩
  | .hbm, ⟨7, _⟩ => ⟨S7x1x2048, .f32⟩
  | .hbm, ⟨8, _⟩ => ⟨S7x4096x512, .f32⟩
  | .hbm, ⟨9, _⟩ => ⟨S7x4096x2048, .f32⟩
  | .hbm, ⟨10, _⟩ => ⟨S4096x7x2048, .f32⟩
  | .hbm, ⟨11, _⟩ => ⟨S_, .i1⟩
  | .hbm, ⟨12, _⟩ => ⟨S4096x7, .i1⟩
  | .local _ .vmem, ⟨0, _⟩ => ⟨S1x512x512, .f32⟩
  | .local _ .vmem, ⟨1, _⟩ => ⟨S1x512x512, .f32⟩
  | .local _ .vmem, ⟨2, _⟩ => ⟨S512x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x512x2048, .f32⟩
  | .local _ .vmem, ⟨6, _⟩ => ⟨S1x512x2048, .f32⟩
  | _, _ => ⟨S4096x7x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S2048_S1x2048_1 : S2048.BroadcastsInDim S1x2048 (![1] : Fin 1 → Fin S1x2048.rank)
  bcast_S1x2048_S7x2048_0_1 : S1x2048.BroadcastsInDim S7x2048 (![0, 1] : Fin 2 → Fin S7x2048.rank)
  shapeCasts_S7x2048_S7x1x2048 : S7x2048.ShapeCasts S7x1x2048
  transposes_S4096x7x512_S7x4096x512_1_0_2 : S4096x7x512.Transposes [1, 0, 2] S7x4096x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  transposes_S7x4096x2048_S4096x7x2048_1_0_2 : S7x4096x2048.Transposes [1, 0, 2] S4096x7x2048
  bcast_S_S4096x7 : S_.BroadcastsInDim S4096x7 (![] : Fin 0 → Fin S4096x7.rank)
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S7x4096x512.size a
  hwx0_0 : ∀ i : grid0.Coords, EltTy.bits .f32 = 32 ∨ (Rect.block (s := S7x4096x512) S1x512x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S7x1x2048.size a
  hwx0_2 : ∀ i : grid0.Coords, EltTy.bits .f32 = 32 ∨ (Rect.block (s := S7x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S7x4096x2048.size a
  hwx0_3 : ∀ i : grid0.Coords, EltTy.bits .f32 = 32 ∨ (Rect.block (s := S7x4096x2048) S1x512x2048.size (cc0_transform_3 i) (hinb0_3 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v4) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x7x512 : Shape := ⟨3, ![4096, 7, 512]⟩
abbrev S512x2048 : Shape := ⟨2, ![512, 2048]⟩
abbrev S2048 : Shape := ⟨1, ![2048]⟩
abbrev S7x2048 : Shape := ⟨2, ![7, 2048]⟩
abbrev S7 : Shape := ⟨1, ![7]⟩
abbrev S_ : Shape := ⟨0, ![]⟩
abbrev S7x1 : Shape := ⟨2, ![7, 1]⟩
abbrev S1 : Shape := ⟨1, ![1]⟩
abbrev S1x1 : Shape := ⟨2, ![1, 1]⟩
abbrev S1x7x2048 : Shape := ⟨3, ![1, 7, 2048]⟩
abbrev S4096x7 : Shape := ⟨2, ![4096, 7]⟩
abbrev S4096x7x2048 : Shape := ⟨3, ![4096, 7, 2048]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x7x512, .f32⟩
  | .hbm, ⟨1, _⟩ => ⟨S512x2048, .f32⟩
  | .hbm, ⟨2, _⟩ => ⟨S2048, .f32⟩
  | .hbm, ⟨3, _⟩ => ⟨S7x2048, .f32⟩
  | .hbm, ⟨4, _⟩ => ⟨S7, .i32⟩
  | .hbm, ⟨5, _⟩ => ⟨S_, .i32⟩
  | .hbm, ⟨6, _⟩ => ⟨S7, .i32⟩
  | .hbm, ⟨7, _⟩ => ⟨S7, .i1⟩
  | .hbm, ⟨8, _⟩ => ⟨S_, .i32⟩
  | .hbm, ⟨9, _⟩ => ⟨S7, .i32⟩
  | .hbm, ⟨10, _⟩ => ⟨S7, .i32⟩
  | .hbm, ⟨11, _⟩ => ⟨S7, .i32⟩
  | .hbm, ⟨12, _⟩ => ⟨S7x1, .i32⟩
  | .hbm, ⟨13, _⟩ => ⟨S1, .i32⟩
  | .hbm, ⟨14, _⟩ => ⟨S_, .i32⟩
  | .hbm, ⟨15, _⟩ => ⟨S7x1, .i32⟩
  | .hbm, ⟨16, _⟩ => ⟨S7x1, .i1⟩
  | .hbm, ⟨17, _⟩ => ⟨S1x1, .i32⟩
  | .hbm, ⟨18, _⟩ => ⟨S7x1, .i32⟩
  | .hbm, ⟨19, _⟩ => ⟨S7x1, .i1⟩
  | .hbm, ⟨20, _⟩ => ⟨S7x1, .i1⟩
  | .hbm, ⟨21, _⟩ => ⟨S_, .i1⟩
  | .hbm, ⟨22, _⟩ => ⟨S7, .i1⟩
  | .hbm, ⟨23, _⟩ => ⟨S7x2048, .f32⟩
  | .hbm, ⟨24, _⟩ => ⟨S7x2048, .i1⟩
  | .hbm, ⟨25, _⟩ => ⟨S_, .f32⟩
  | .hbm, ⟨26, _⟩ => ⟨S7x2048, .f32⟩
  | .hbm, ⟨27, _⟩ => ⟨S7x2048, .f32⟩
  | .hbm, ⟨28, _⟩ => ⟨S1x7x2048, .f32⟩
  | .hbm, ⟨29, _⟩ => ⟨S_, .i1⟩
  | .hbm, ⟨30, _⟩ => ⟨S4096x7, .i1⟩
  | .hbm, ⟨31, _⟩ => ⟨S4096x7x2048, .f32⟩
  | .hbm, ⟨32, _⟩ => ⟨S1x1x2048, .f32⟩
  | .hbm, ⟨33, _⟩ => ⟨S4096x7x2048, .f32⟩
  | .hbm, ⟨34, _⟩ => ⟨S4096x7x2048, .f32⟩
  | .hbm, ⟨35, _⟩ => ⟨S4096x7x2048, .f32⟩
  | .hbm, ⟨36, _⟩ => ⟨S4096x7x2048, .f32⟩
  | _, _ => ⟨S4096x7x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_c : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩

abbrev nD : Nat := 1
abbrev τ : Topo := Topo.v7x

variable {F : FTy → Type} [FloatOps F]

class Facts₀ : Prop where
  bcast_S_S7 : S_.BroadcastsInDim S7 (![] : Fin 0 → Fin S7.rank)
  bcast_S7_S7x1_0 : S7.BroadcastsInDim S7x1 (![0] : Fin 1 → Fin S7x1.rank)
  bcast_S_S7x1 : S_.BroadcastsInDim S7x1 (![] : Fin 0 → Fin S7x1.rank)
  bcast_S1_S1x1_1 : S1.BroadcastsInDim S1x1 (![1] : Fin 1 → Fin S1x1.rank)
  bcast_S1x1_S7x1_0_1 : S1x1.BroadcastsInDim S7x1 (![0, 1] : Fin 2 → Fin S7x1.rank)
  reducesTo_S7x1_S7_d1 : S7x1.ReducesTo [1] S7
  h_S_ : 0 < S_.numel
  bcast_S7_S7x2048_0 : S7.BroadcastsInDim S7x2048 (![0] : Fin 1 → Fin S7x2048.rank)
  bcast_S_S7x2048 : S_.BroadcastsInDim S7x2048 (![] : Fin 0 → Fin S7x2048.rank)
  bcast_S7x2048_S1x7x2048_1_2 : S7x2048.BroadcastsInDim S1x7x2048 (![1, 2] : Fin 2 → Fin S1x7x2048.rank)
  bcast_S_S4096x7 : S_.BroadcastsInDim S4096x7 (![] : Fin 0 → Fin S4096x7.rank)
  bcast_S2048_S1x1x2048_2 : S2048.BroadcastsInDim S1x1x2048 (![2] : Fin 1 → Fin S1x1x2048.rank)
  bcast_S1x1x2048_S4096x7x2048_0_1_2 : S1x1x2048.BroadcastsInDim S4096x7x2048 (![0, 1, 2] : Fin 3 → Fin S4096x7x2048.rank)
  bcast_S1x7x2048_S4096x7x2048_0_1_2 : S1x7x2048.BroadcastsInDim S4096x7x2048 (![0, 1, 2] : Fin 3 → Fin S4096x7x2048.rank)
  gather_S7x2048_S7x1_S7x2048_1_0_n_n_0_1_12048_wf : GatherDims.WF S7x2048 S7x1 S7x2048 [1] [0] [] [0] [] 1 ![1, 2048]
  dot_S4096x7x512_S512x2048_S4096x7x2048_2_0_01_1_n_n_wf : DotDims.WF S4096x7x512 S512x2048 S4096x7x2048 [2] [0] [0, 1] [1] [] []

variable [Facts₀]

def gather_S7x2048_S7x1_S7x2048_1_0_n_n_0_1_12048 : GatherDims S7x2048 S7x1 S7x2048 where
  offsetDims := [1]
  collapsedSliceDims := [0]
  operandBatchingDims := []
  startIndicesBatchingDims := []
  startIndexMap := [0]
  indexVectorDim := 1
  sliceSizes := ![1, 2048]
  wf := gather_S7x2048_S7x1_S7x2048_1_0_n_n_0_1_12048_wf
def dot_S4096x7x512_S512x2048_S4096x7x2048_2_0_01_1_n_n : DotDims S4096x7x512 S512x2048 S4096x7x2048 where
  lhsContracting := [2]
  rhsContracting := [0]
  lhsNonContracting := [0, 1]
  rhsNonContracting := [1]
  lhsBatch := []
  rhsBatch := []
  wf := dot_S4096x7x512_S512x2048_S4096x7x2048_2_0_01_1_n_n_wf

class Facts : Prop extends Facts₀ where

variable [Facts]
-- ==== Proof.EntryArrays.lean ====
/-
  The two arrays the host prepares before the kernel region, read at an entry.

  The activations are handed to the kernel position first: entry `(l, a, k)` of the prepared array is entry
  `(a, l, k)` of the argument. The table the kernel adds after its product is the positional table with the bias
  added to every row, given a unit middle axis: entry `(l, 0, d)` is `p[l, d] + b[d]`.
-/
import proofs.«122868_g81097572483172_cont_9to1c4b_262_11_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Entry

open Idealize.ShloMosaic Idealize.ShloMosaic.ValueIdx Idealize.SL.Sem Cert.KernelIdeal Cert.KernelIdeal.Gen
open Idealize.ShloMosaic.StableHlo

variable (m : (ℓ : Loc nD τ sig) → Buf (Elt Ideal) ℓ)

/-- The four argument arrays as launched, each at its literal type: activations, weights, bias, positional table. -/
abbrev xarr (c : Dev nD) : S4096x7x512.Idx → EReal := m ((c.tc : Thread nD τ).loc main_arg0)
abbrev warr (c : Dev nD) : S512x2048.Idx → EReal := m ((c.tc : Thread nD τ).loc main_arg1)
abbrev barr (c : Dev nD) : S2048.Idx → EReal := m ((c.tc : Thread nD τ).loc main_arg2)
abbrev parr (c : Dev nD) : S7x2048.Idx → EReal := m ((c.tc : Thread nD τ).loc main_arg3)

/-- The two prepared arrays as the region finds them, each at its literal type. -/
abbrev xT (c : Dev nD) : S7x4096x512.Idx → EReal := V m c main_v4
abbrev padd (c : Dev nD) : S7x1x2048.Idx → EReal := V m c main_v3

/-- The prepared activations are the argument with its two leading axes exchanged. -/
theorem xT_eq (c : Dev nD) :
    xT m c = transpose S7x4096x512 [1, 0, 2] (xarr m c) transposes_S4096x7x512_S7x4096x512_1_0_2 := by
  show StableHlo.after hostOps0 (fun b => m (c, b)) (Proc.devRef .tc main_v4) = _
  after_results

/-- The prepared table is the positional table plus the bias repeated over the seven rows, under a unit middle axis. -/
theorem padd_eq (c : Dev nD) :
    padd m c = shapeCast S7x1x2048
      (addf (F := Ideal) (φ := .f32) (parr m c) (broadcastInDim S7x2048 ![0, 1] bcast_S1x2048_S7x2048_0_1
        (broadcastInDim S1x2048 ![1] bcast_S2048_S1x2048_1 (barr m c))))
      shapeCasts_S7x2048_S7x1x2048 := by
  show StableHlo.after hostOps0 (fun b => m (c, b)) (Proc.devRef .tc main_v3) = _
  after_results
  rfl

/-- The position-first activations at `(l, a, k)` are the argument's at `(a, l, k)`. -/
theorem xT_apply (c : Dev nD) (l : Fin 7) (a : Fin 4096) (k : Fin 512) :
    xT m c (ix3 l a k) = xarr m c (ix3 a l k) := by
  rw [xT_eq]
  exact transpose_apply _ (xarr m c) _ (ix3 l a k) (ix3 a l k) fun b =>
    match b with | ⟨0, _⟩ => rfl | ⟨1, _⟩ => rfl | ⟨2, _⟩ => rfl

/-- The prepared table at `(l, 0, d)` is the positional row's entry plus the bias. -/
theorem padd_apply (c : Dev nD) (l : Fin 7) (d : Fin 2048) :
    padd m c (ix3 l (0 : Fin 1) d) = parr m c (ix2 l d) + barr m c (ix1 d) := by
  rw [padd_eq]
  -- the unit middle axis does not move an entry's row-major position
  refine (shapeCast_apply _ shapeCasts_S7x2048_S7x1x2048 (ix3 l (0 : Fin 1) d) (ix2 l d) (by
    rw [Shape.rowMajor_val_two, Shape.rowMajor_val_three]
    show l.val * 2048 + d.val = (l.val * 1 + 0) * 2048 + d.val
    omega)).trans ?_
  refine (addf_apply _ _ (ix2 l d)).trans ?_
  refine congrArg (parr m c (ix2 l d) + ·) ?_
  -- the bias is first made a one-row matrix, then that row is repeated
  refine (broadcastInDim_apply ![0, 1] bcast_S1x2048_S7x2048_0_1 _ (ix2 l d) (ix2 (0 : Fin 1) d) fun ax =>
    match ax with | ⟨0, _⟩ => rfl | ⟨1, _⟩ => rfl).trans ?_
  exact broadcastInDim_apply ![1] bcast_S2048_S1x2048_1 (barr m c) (ix2 (0 : Fin 1) d) (ix1 d) fun ax =>
    match ax with | ⟨0, _⟩ => rfl

end Cert.KernelIdeal.Entry

end
-- ==== Proof.BodyValue.lean ====
/-
  What one grid step of the kernel stores, entry by entry.

  The step's stored block `[1, 512, 2048]` is computed from a block `x0 : [1, 512, 512]` of the (position-first)
  activations, the whole weight matrix `x1 : [512, 2048]` and one row `x2 : [1, 1, 2048]` of the bias-plus-position
  table: entry `(0, r, d)` is the product sum `∑ k, x0[0, r, k] · x1[k, d]` over the 512 input channels, accumulated
  from zero, plus `x2[0, 0, d]`. The narrowing of both factors to bf16 before the product is the identity on the
  extended reals.
-/
import proofs.«122868_g81097572483172_cont_9to1c4b_262_11_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen

/-! ## The product's operand indices

The step's matrix product contracts the second axis of its left factor `[512, 512]` with the first axis of its right
factor `[512, 2048]`: at result entry `j = (r, d)` and contraction position `k` the left factor is read at `(r, k)`
and the right factor at `(k, d)`. One lemma per operand axis. -/

/-- Left factor, row axis: the result's row. -/
theorem lhs_row (j : S512x2048.Idx) (k : dot_S512x512_S512x2048_S512x2048_1_0_0_1_n_n.contr.Idx) :
    (dot_S512x512_S512x2048_S512x2048_1_0_0_1_n_n.lhsIdx j k 0).val = (j 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl

/-- Left factor, column axis: the contraction position. -/
theorem lhs_col (j : S512x2048.Idx) (k : dot_S512x512_S512x2048_S512x2048_1_0_0_1_n_n.contr.Idx) :
    (dot_S512x512_S512x2048_S512x2048_1_0_0_1_n_n.lhsIdx j k 1).val = (k ⟨0, by decide⟩).val :=
  dot_S512x512_S512x2048_S512x2048_1_0_0_1_n_n.lhsIdx_val_of_single (cl := 1) rfl j k

/-- Right factor, row axis: the contraction position. -/
theorem rhs_row (j : S512x2048.Idx) (k : dot_S512x512_S512x2048_S512x2048_1_0_0_1_n_n.contr.Idx) :
    (dot_S512x512_S512x2048_S512x2048_1_0_0_1_n_n.rhsIdx j k 0).val = (k ⟨0, by decide⟩).val :=
  dot_S512x512_S512x2048_S512x2048_1_0_0_1_n_n.rhsIdx_val_of_single (cr := 0) rfl j k

/-- Right factor, column axis: the result's column. -/
theorem rhs_col (j : S512x2048.Idx) (k : dot_S512x512_S512x2048_S512x2048_1_0_0_1_n_n.contr.Idx) :
    (dot_S512x512_S512x2048_S512x2048_1_0_0_1_n_n.rhsIdx j k 1).val = (j 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The product of a `[512, 512]` by a `[512, 2048]` matrix accumulated from zero, at `(r, d)`: the sum over the 512
    shared positions. -/
theorem product_apply (a : FVec Ideal S512x512 .bf16) (b : FVec Ideal S512x2048 .bf16) (r : Fin 512) (d : Fin 2048) :
    matmul dot_S512x512_S512x2048_S512x2048_1_0_0_1_n_n none a b (constant (F := Ideal) S512x2048 .f32 0x00000000#32) (ix2 r d)
      = ∑ k : Fin 512, a (ix2 r k) * b (ix2 k d) := by
  refine (Ideal.matmul_constant_zero_apply dot_S512x512_S512x2048_S512x2048_1_0_0_1_n_n none a b (ix2 r d)).trans ?_
  rw [← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have hl : dot_S512x512_S512x2048_S512x2048_1_0_0_1_n_n.lhsIdx (ix2 r d)
      ((contrEquiv1 dot_S512x512_S512x2048_S512x2048_1_0_0_1_n_n 512 rfl rfl).symm k) = ix2 r k := by
    funext ax; refine Fin.ext ?_
    match ax with
    | ⟨0, _⟩ => exact lhs_row _ _
    | ⟨1, _⟩ => exact (lhs_col _ _).trans hk
  have hr : dot_S512x512_S512x2048_S512x2048_1_0_0_1_n_n.rhsIdx (ix2 r d)
      ((contrEquiv1 dot_S512x512_S512x2048_S512x2048_1_0_0_1_n_n 512 rfl rfl).symm k) = ix2 k d := by
    funext ax; refine Fin.ext ?_
    match ax with
    | ⟨0, _⟩ => exact (rhs_row _ _).trans hk
    | ⟨1, _⟩ => exact rhs_col _ _
  rw [hl, hr]

/-- The stored block at row `r`, channel `d`: the row's projection onto channel `d`, plus the table row's entry. -/
theorem pay_apply (x0 : Vec Ideal S1x512x512 .f32) (x1 : Vec Ideal S512x2048 .f32) (x2 : Vec Ideal S1x1x2048 .f32)
    (r : Fin 512) (d : Fin 2048) :
    k0_pay1 (F := Ideal) x0 x1 x2 (ix3 (0 : Fin 1) r d)
      = (∑ k : Fin 512, x0 (ix3 (0 : Fin 1) r k) * x1 (ix2 k d)) + x2 (ix3 (0 : Fin 1) (0 : Fin 1) d) := by
  unfold k0_pay1
  -- the stored block is the sum's `[512, 2048]` value under a leading unit axis
  refine (shapeCast_ab_1ab_apply _ _ (0 : Fin 1) r d).trans ?_
  refine (addf_apply _ _ (ix2 r d)).trans ?_
  refine congrArg₂ (· + ·) ?_ ?_
  · -- the product of the row block by the weights; narrowing to bf16 changes nothing
    refine (product_apply _ _ r d).trans ?_
    refine Finset.sum_congr rfl fun k _ => ?_
    refine congrArg₂ (· * ·) ?_ ?_
    · exact shapeCast_1ab_ab_apply x0 _ r k
    · rfl
  · -- the table row, its unit axes dropped, repeated down the 512 rows
    refine (broadcastTo_1b_ab_apply _ _ r d).trans ?_
    exact shapeCast_1ab_ab_apply x2 _ (0 : Fin 1) d

end Cert.KernelIdeal.BodyValue

end
-- ==== Proof.EmbedSpec.lean ====
/-
  The embedding layer as ONE function of its four arrays.

  For a batch entry `a`, a position `l` and an output channel `d` the layer's value is the token projection
  `∑ k, x[a, l, k] · w[k, d]` of the 512 input channels, plus the bias `b[d]`, plus the row `p[l, d]` of the
  positional table. On the extended reals the three summands may be added in any grouping and order (addition there is
  commutative and associative, infinities included), so nothing here asks the arrays to be finite.

  Two programs are compared against this function. One adds the bias to the positional row first and adds that sum
  to the projection, computing on arrays whose two leading axes are exchanged; the other adds the bias to the
  projection and then the positional row. `add_row_first` is the one law between them.
-/
import Idealize.ShloMosaic.PureOps.Ideal
import Idealize.ShloMosaic.Lib.ValueIdx

noncomputable section

open scoped BigOperators

namespace Cert.Embed

open Idealize.ShloMosaic Idealize.ShloMosaic.ValueIdx

/-- The layer's value at batch entry `a`, position `l`, channel `d`: projection, then bias, then positional row. -/
def embedAt (x : (⟨3, ![4096, 7, 512]⟩ : Shape).Idx → EReal) (w : (⟨2, ![512, 2048]⟩ : Shape).Idx → EReal)
    (b : (⟨1, ![2048]⟩ : Shape).Idx → EReal) (p : (⟨2, ![7, 2048]⟩ : Shape).Idx → EReal)
    (a : Fin 4096) (l : Fin 7) (d : Fin 2048) : EReal :=
  (∑ k : Fin 512, x (ix3 a l k) * w (ix2 k d)) + b (ix1 d) + p (ix2 l d)

/-- The layer's result as an array `[4096, 7, 2048]`: batch entry, position, channel. -/
def embed (x : (⟨3, ![4096, 7, 512]⟩ : Shape).Idx → EReal) (w : (⟨2, ![512, 2048]⟩ : Shape).Idx → EReal)
    (b : (⟨1, ![2048]⟩ : Shape).Idx → EReal) (p : (⟨2, ![7, 2048]⟩ : Shape).Idx → EReal) :
    (⟨3, ![4096, 7, 2048]⟩ : Shape).Idx → EReal :=
  fun i => embedAt x w b p (i 0) (i 1) (i 2)

/-- The same values laid out position first, `[7, 4096, 2048]`: position, batch entry, channel. -/
def embedT (x : (⟨3, ![4096, 7, 512]⟩ : Shape).Idx → EReal) (w : (⟨2, ![512, 2048]⟩ : Shape).Idx → EReal)
    (b : (⟨1, ![2048]⟩ : Shape).Idx → EReal) (p : (⟨2, ![7, 2048]⟩ : Shape).Idx → EReal) :
    (⟨3, ![7, 4096, 2048]⟩ : Shape).Idx → EReal :=
  fun i => embedAt x w b p (i 1) (i 0) (i 2)

theorem embed_ix3 (x : (⟨3, ![4096, 7, 512]⟩ : Shape).Idx → EReal) (w : (⟨2, ![512, 2048]⟩ : Shape).Idx → EReal)
    (b : (⟨1, ![2048]⟩ : Shape).Idx → EReal) (p : (⟨2, ![7, 2048]⟩ : Shape).Idx → EReal)
    (a : Fin 4096) (l : Fin 7) (d : Fin 2048) : embed x w b p (ix3 a l d) = embedAt x w b p a l d := rfl

theorem embedT_ix3 (x : (⟨3, ![4096, 7, 512]⟩ : Shape).Idx → EReal) (w : (⟨2, ![512, 2048]⟩ : Shape).Idx → EReal)
    (b : (⟨1, ![2048]⟩ : Shape).Idx → EReal) (p : (⟨2, ![7, 2048]⟩ : Shape).Idx → EReal)
    (l : Fin 7) (a : Fin 4096) (d : Fin 2048) : embedT x w b p (ix3 l a d) = embedAt x w b p a l d := rfl

/-- Exchanging the two leading axes of the position-first layout gives the batch-first one. -/
theorem embedT_swap (x : (⟨3, ![4096, 7, 512]⟩ : Shape).Idx → EReal) (w : (⟨2, ![512, 2048]⟩ : Shape).Idx → EReal)
    (b : (⟨1, ![2048]⟩ : Shape).Idx → EReal) (p : (⟨2, ![7, 2048]⟩ : Shape).Idx → EReal)
    (a : Fin 4096) (l : Fin 7) (d : Fin 2048) : embedT x w b p (ix3 l a d) = embed x w b p (ix3 a l d) := rfl

/-- Bias joined to the positional row before the projection is added, against bias then positional row: the same
    sum of three extended reals. -/
theorem add_row_first (s b p : EReal) : s + (p + b) = s + b + p := by
  rw [add_comm p b, add_assoc]

/-- The padding mask of the layer: every position of every batch entry is kept. -/
def ones : (⟨2, ![4096, 7]⟩ : Shape).Idx → BitVec 1 := fun _ => 1#1

end Cert.Embed

end
-- ==== Proof.OutputArray.lean ====
/-
  The kernel region's output array, whole.

  The grid has 7 × 8 points: point `(l, i)` works on position `l` and on the `i`-th block of 512 batch entries. Its
  output block is rows `512·i … 512·i + 511` of plane `l` of the position-first result `[7, 4096, 2048]`; it reads
  the same rows of plane `l` of the position-first activations, the whole weight matrix, and row `l` of the prepared
  table. So entry `(l, a, d)` of the output array is `∑ k, x[a, l, k] · w[k, d] + (p[l, d] + b[d])`, which is the
  layer's value there, the bias and the positional row added in the other order. The 56 blocks tile the array, so
  the whole array is the layer's result laid out position first.
-/
import proofs.«122868_g81097572483172_cont_9to1c4b_262_11_alg».proof.Proof.EntryArrays
import proofs.«122868_g81097572483172_cont_9to1c4b_262_11_alg».proof.Proof.BodyValue
import proofs.«122868_g81097572483172_cont_9to1c4b_262_11_alg».proof.Proof.EmbedSpec

noncomputable section

open scoped BigOperators

namespace Cert.KernelIdeal.Output

open Idealize.ShloMosaic Idealize.ShloMosaic.ValueIdx Idealize.SL.Sem Cert.KernelIdeal Cert.KernelIdeal.Gen Cert.Embed
open Cert.KernelIdeal.Entry Cert.KernelIdeal.BodyValue

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The block indices over the grid -/

/-- At every grid point: the output block's plane is one of the seven and its row block one of the eight; the
    activations' block is the same plane and row block; the weights' block is the whole matrix; the table's block is
    the same plane's one row. -/
theorem idx_facts : ∀ t : Fin cfg0.N,
    win0_3.index t (0 : Fin 3) ≤ 6 ∧ win0_3.index t (1 : Fin 3) ≤ 7 ∧ win0_3.index t (2 : Fin 3) = 0
    ∧ win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 3) = win0_3.index t (0 : Fin 3) ∧ win0_2.index t (1 : Fin 3) = 0
    ∧ win0_2.index t (2 : Fin 3) = 0 :=
  (by decide +kernel : ∀ t : Fin grid0.N, _)

/-- Every plane and row block is some point's. -/
theorem idx_onto : ∀ (q0 : Fin 7) (q1 : Fin 8), ∃ t : Fin cfg0.N, win0_3.index t = ![q0.val, q1.val, 0] :=
  (by decide +kernel : ∀ (q0 : Fin 7) (q1 : Fin 8), ∃ t : Fin grid0.N, win0_3.index t = ![q0.val, q1.val, 0])

/-! ## The three input blocks at a point, read off their arrays -/

/-- The input blocks at point `t`, each at its literal type. -/
abbrev xblk (c : Dev nD) (t : Fin cfg0.N) : Vec Ideal S1x512x512 .f32 := iblk m c 0 t
abbrev wblk (c : Dev nD) (t : Fin cfg0.N) : Vec Ideal S512x2048 .f32 := iblk m c 1 t
abbrev pblk (c : Dev nD) (t : Fin cfg0.N) : Vec Ideal S1x1x2048 .f32 := iblk m c 2 t

/-- Row `r` of the activations' block is row `512·i + r` of plane `l`. -/
theorem xblk_apply (c : Dev nD) (t : Fin cfg0.N) (r k : Fin 512) (L : Fin 7) (A : Fin 4096)
    (hL : win0_0.index t (0 : Fin 3) = L.val) (hA : win0_0.index t (1 : Fin 3) * 512 + r.val = A.val)
    (h2 : win0_0.index t (2 : Fin 3) = 0) :
    xblk m c t (ix3 (0 : Fin 1) r k) = xT m c (ix3 L A k) := by
  show V m c main_v4 (((cfg0.win 0).blk t).view.emb (ix3 (0 : Fin 1) r k)) = V m c main_v4 (ix3 L A k)
  have e : ((cfg0.win 0).blk t).view.emb (ix3 (0 : Fin 1) r k) = ix3 L A k := by
    funext a; apply Fin.ext
    match a with
    | ⟨0, _⟩ => show win0_0.index t (0 : Fin 3) * 1 + 1 * 0 = L.val; omega
    | ⟨1, _⟩ => show win0_0.index t (1 : Fin 3) * 512 + 1 * r.val = A.val; omega
    | ⟨2, _⟩ => show win0_0.index t (2 : Fin 3) * 512 + 1 * k.val = k.val; omega
  rw [e]

/-- The weights' block is the whole weight matrix, as launched. -/
theorem wblk_apply (c : Dev nD) (t : Fin cfg0.N) (k : Fin 512) (d : Fin 2048)
    (h0 : win0_1.index t (0 : Fin 2) = 0) (h1 : win0_1.index t (1 : Fin 2) = 0) :
    wblk m c t (ix2 k d) = warr m c (ix2 k d) := by
  show V m c main_arg1 (((cfg0.win 1).blk t).view.emb (ix2 k d)) = m ((c.tc : Thread nD τ).loc main_arg1) (ix2 k d)
  have e : ((cfg0.win 1).blk t).view.emb (ix2 k d) = ix2 k d := by
    funext a; apply Fin.ext
    match a with
    | ⟨0, _⟩ => show win0_1.index t (0 : Fin 2) * 512 + 1 * k.val = k.val; omega
    | ⟨1, _⟩ => show win0_1.index t (1 : Fin 2) * 2048 + 1 * d.val = d.val; omega
  rw [e, V_main_arg1 m c]

/-- The table's block is row `l` of the prepared table. -/
theorem pblk_apply (c : Dev nD) (t : Fin cfg0.N) (d : Fin 2048) (L : Fin 7)
    (hL : win0_2.index t (0 : Fin 3) = L.val) (h1 : win0_2.index t (1 : Fin 3) = 0)
    (h2 : win0_2.index t (2 : Fin 3) = 0) :
    pblk m c t (ix3 (0 : Fin 1) (0 : Fin 1) d) = padd m c (ix3 L (0 : Fin 1) d) := by
  show V m c main_v3 (((cfg0.win 2).blk t).view.emb (ix3 (0 : Fin 1) (0 : Fin 1) d)) = V m c main_v3 (ix3 L (0 : Fin 1) d)
  have e : ((cfg0.win 2).blk t).view.emb (ix3 (0 : Fin 1) (0 : Fin 1) d) = ix3 L (0 : Fin 1) d := by
    funext a; apply Fin.ext
    match a with
    | ⟨0, _⟩ => show win0_2.index t (0 : Fin 3) * 1 + 1 * 0 = L.val; omega
    | ⟨1, _⟩ => show win0_2.index t (1 : Fin 3) * 1 + 1 * 0 = 0; omega
    | ⟨2, _⟩ => show win0_2.index t (2 : Fin 3) * 2048 + 1 * d.val = d.val; omega
  rw [e]

/-! ## What a point stores is its block of the layer's result -/

/-- Entry `j` of what point `t` stores is the position-first result at the place the output block puts `j`:
    the product sum of the row with the weights plus (positional row plus bias), regrouped as (sum plus bias) plus
    positional row. -/
theorem stored_apply (c : Dev nD) (t : Fin cfg0.N) (j : S1x512x2048.Idx) :
    k0_pay1 (F := Ideal) (xblk m c t) (wblk m c t) (pblk m c t) j
      = embedT (xarr m c) (warr m c) (barr m c) (parr m c) (((cfg0.win 3).blk t).view.emb j) := by
  obtain ⟨u, r, d, rfl⟩ : ∃ (u : Fin 1) (r : Fin 512) (d : Fin 2048), j = ix3 u r d := ⟨j 0, j 1, j 2, eq_ix3 j⟩
  obtain rfl : u = 0 := Subsingleton.elim _ _
  obtain ⟨b0, b1, e2, f0, f1, f2, g0, g1, h0, h1, h2⟩ := idx_facts t
  -- the position and the batch entry this row belongs to
  have hL : win0_3.index t (0 : Fin 3) < 7 := by omega
  have hA : win0_3.index t (1 : Fin 3) * 512 + r.val < 4096 := by have := r.isLt; omega
  have e3 : ((cfg0.win 3).blk t).view.emb (ix3 (0 : Fin 1) r d)
      = ix3 (⟨win0_3.index t (0 : Fin 3), hL⟩ : Fin 7) (⟨win0_3.index t (1 : Fin 3) * 512 + r.val, hA⟩ : Fin 4096) d := by
    funext a; apply Fin.ext
    match a with
    | ⟨0, _⟩ => show win0_3.index t (0 : Fin 3) * 1 + 1 * 0 = win0_3.index t (0 : Fin 3); omega
    | ⟨1, _⟩ => show win0_3.index t (1 : Fin 3) * 512 + 1 * r.val = win0_3.index t (1 : Fin 3) * 512 + r.val; omega
    | ⟨2, _⟩ => show win0_3.index t (2 : Fin 3) * 2048 + 1 * d.val = d.val; omega
  rw [e3, embedT_ix3]
  refine (pay_apply (xblk m c t) (wblk m c t) (pblk m c t) r d).trans ?_
  have hs : (∑ k : Fin 512, xblk m c t (ix3 (0 : Fin 1) r k) * wblk m c t (ix2 k d))
      = ∑ k : Fin 512, xarr m c (ix3 (⟨win0_3.index t (1 : Fin 3) * 512 + r.val, hA⟩ : Fin 4096)
          (⟨win0_3.index t (0 : Fin 3), hL⟩ : Fin 7) k) * warr m c (ix2 k d) :=
    Finset.sum_congr rfl fun k _ => by
      rw [xblk_apply m c t r k ⟨win0_3.index t (0 : Fin 3), hL⟩ ⟨win0_3.index t (1 : Fin 3) * 512 + r.val, hA⟩
          f0 (by rw [f1]) f2, xT_apply, wblk_apply m c t k d g0 g1]
  rw [hs, pblk_apply m c t d ⟨win0_3.index t (0 : Fin 3), hL⟩ h0 h1 h2, padd_apply]
  exact add_row_first _ _ _

/-- What point `t` writes back is its block of the position-first result. -/
theorem flushed_eq (c : Dev nD) (t : Fin cfg0.N) :
    (dats m 0 c).flushed 3 t
      = ((cfg0.win 3).blk t).view.read (Elt Ideal) (embedT (xarr m c) (warr m c) (barr m c) (parr m c)) := by
  show (cfg0.win 3).cut (grid0.coords t) ((dats m 0 c).after 3 t) = _
  rw [after0_3]
  unfold out0_3
  rw [View.canon_unit_zero hz3]
  simp only [View.ld_unit_zero (S := S1x512x512) hz3, View.ld_unit_zero (S := S512x2048) hz2,
    View.ld_unit_zero (S := S1x1x2048) hz3]
  funext j
  exact stored_apply m c t j

/-! ## The blocks tile the array -/

/-- An entry is in point `t`'s output block iff each coordinate is in the block's range on its axis. -/
theorem mem_blk (t : Fin cfg0.N) (i : S7x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v5).slice (win0_3.rect t)).set ↔ _
  rw [View.set_slice_whole, Rect.mem_set_unit]
  exact Iff.rfl

/-- Entry `(l, a, d)` is in the block of the point at plane `l`, row block `a / 512`. -/
theorem cover (i : S7x4096x2048.Idx) :
    ∃ t : Fin cfg0.N, (cfg0.win 3).flush t = true ∧ i ∈ ((cfg0.win 3).blk t).view.set := by
  have hi0 : (i 0).val < 7 := (i 0).isLt
  have hi1 : (i 1).val < 4096 := (i 1).isLt
  have hi2 : (i 2).val < 2048 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- After the last grid step the region's output array is the layer's result laid out position first. -/
theorem final (c : Dev nD) :
    ((dats m 0 c).arrAt 3 cfg0.N : S7x4096x2048.Idx → EReal)
      = embedT (m ((c.tc : Thread nD τ).loc main_arg0)) (m ((c.tc : Thread nD τ).loc main_arg1))
          (m ((c.tc : Thread nD τ).loc main_arg2)) (m ((c.tc : Thread nD τ).loc main_arg3)) :=
  (dats m 0 c).arrAt_eq_of_cover 3 (embedT (xarr m c) (warr m c) (barr m c) (parr m c))
    (fun t _ => flushed_eq m c t) (cover)

end Cert.KernelIdeal.Output

end
-- ==== Proof.KernelRun.lean ====
/-
  The kernel program's run with its two results named.

  After the region the host exchanges the two leading axes of the region's output array, which turns the
  position-first layout of the layer's result into the batch-first one, and builds the mask as a constant: true at
  every position of every batch entry. The four argument arrays are written by nothing.
-/
import proofs.«122868_g81097572483172_cont_9to1c4b_262_11_alg».proof.Proof.OutputArray

noncomputable section

open scoped BigOperators

namespace Cert.KernelIdeal.KernelRun

open Idealize.ShloMosaic Idealize.ShloMosaic.ValueIdx Idealize.SL.Sem Cert.KernelIdeal Cert.KernelIdeal.Gen Cert.Embed
open Cert.KernelIdeal.Entry Cert.KernelIdeal.Output Idealize.ShloMosaic.StableHlo

variable (m : (ℓ : Loc nD τ sig) → Buf (Elt Ideal) ℓ)

/-- The first result: the region's output array with its leading axes exchanged is the layer's result. -/
theorem tail_result (c : Dev nD) :
    (Pipeline.afterTail₀ cfgs (dats m) 0 (V0 m) [hostOps1] c main_v6 : S4096x7x2048.Idx → EReal)
      = embed (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v6) = _
  after_results
  -- what the tail finds in the region's output array is what the region left there
  have hv5 : Pipeline.withArrays (cfgs 0).spec c (V0 m c) (fun w => (dats m 0 c).arrAt w (cfgs 0).N) (Proc.devRef .tc main_v5)
      = embedT (m ((c.tc : Thread nD τ).loc main_arg0)) (m ((c.tc : Thread nD τ).loc main_arg1))
          (m ((c.tc : Thread nD τ).loc main_arg2)) (m ((c.tc : Thread nD τ).loc main_arg3)) :=
    (Pipeline.withArrays_arr spec0 launch0.win.arr_inj c _ _ 3).trans (final m c)
  rw [hv5]
  funext i
  obtain ⟨a, l, d, rfl⟩ : ∃ (a : Fin 4096) (l : Fin 7) (d : Fin 2048), i = ix3 a l d := ⟨i 0, i 1, i 2, eq_ix3 i⟩
  exact (transpose_apply _ _ _ (ix3 a l d) (ix3 l a d) fun b =>
    match b with | ⟨0, _⟩ => rfl | ⟨1, _⟩ => rfl | ⟨2, _⟩ => rfl).trans (embedT_swap _ _ _ _ a l d)

/-- The second result: the constant true, everywhere. -/
theorem tail_mask (c : Dev nD) :
    (Pipeline.afterTail₀ cfgs (dats m) 0 (V0 m) [hostOps1] c main_v7 : S4096x7.Idx → BitVec 1) = ones := by
  unfold Pipeline.afterTail₀
  show StableHlo.after hostOps1 _ (Proc.devRef .tc main_v7) = _
  after_results
  rfl

/-- Every weakly fair execution of the program ends with the layer's result in its first result array, the all-kept
    mask in its second, and its four arguments as launched. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = embed (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v7) = ones
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (tail_result m c),
      ((h c).2 main_v7 (Pipeline.mem_restRefs_of main_v7 (by decide) (by decide))).trans (tail_mask m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.LibRowTake.lean ====
/-
  Rows of a matrix taken and put back through a column of signed row numbers, read at an entry.

  `x[idx]` of a matrix `x : [N, C]` at a column `idx : [R, 1]` of row numbers is the gather whose result row `e` is
  the row of `x` that `idx[e, 0]` names, the number read as a signed integer and CLAMPED into `[0, N − 1]`. The
  accumulating scatter of update rows `u : [R, C]` into `x` through such a column adds to entry `(n, c)` every
  `u[e, c]` whose row number `idx[e, 0]`, read signed and NOT clamped, is exactly `n`; a row number outside
  `[0, N)` names no row, and its update row is dropped. On the extended reals that accumulation is a finite sum, so
  it does not depend on the order in which the update rows arrive.
-/
import Idealize.ShloMosaic.Lib.ValueIdx

noncomputable section

open scoped BigOperators

namespace Idealize.ShloMosaic.RowTake

open Idealize.ShloMosaic Idealize.ShloMosaic.ValueIdx

/-! ## The gather of rows -/

section Gather
variable {α : Type}

/-- The dimension numbers of a gather of whole rows: operand `[N, C]`, start indices `[R, 1]`, result `[R, C]`; the
    row axis collapsed and named by the start index, the column axis an offset axis, slices `1 × C`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result entry `(e, c)` starts, on the row axis, at the row number `idx[e, 0]` read signed and clamped. -/
theorem rowGather_start_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 0 = min (idx (ix2 e 0)).toInt.toNat (N - 1) := by
  unfold GatherDims.start
  rw [dif_pos (show (0 : Fin 2) ∈ ([0] : List (Fin 2)) from List.mem_singleton.mpr rfl)]
  have hsi : (rowGatherDims N R C wf).siIdx (ix2 e c) ⟨List.idxOf (0 : Fin 2) (rowGatherDims N R C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and, on the column axis, at `0`: the start index names no column. -/
theorem rowGather_start_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 1 = 0 := by
  unfold GatherDims.start
  rw [dif_neg (show (1 : Fin 2) ∉ ([0] : List (Fin 2)) from by decide)]

/-- Its offset coordinate is `0` on the collapsed row axis … -/
theorem rowGather_off_row {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 0 = 0 :=
  GatherDims.offCoord_eq_zero _ _ _ (fun h => ((GatherDims.mem_sKept _ _).mp h).1 (List.mem_singleton.mpr rfl))

/-- … and its own column on the column axis. -/
theorem rowGather_off_col {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 1 = c.val := by
  unfold GatherDims.offCoord
  rw [dif_pos ((GatherDims.mem_sKept _ _).mpr
    ⟨show (1 : Fin 2) ∉ ([0] : List (Fin 2)) from by decide, List.not_mem_nil⟩)]
  rfl

/-- The gathered entry `(e, c)` is the operand's entry in column `c` of the row `idx[e, 0]` names, that number read
    signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  show (rowGatherDims N R C wf).start (ix2 e c) idx a + (rowGatherDims N R C wf).batchCoord (ix2 e c) a
    + (rowGatherDims N R C wf).offCoord (ix2 e c) a = _
  rw [GatherDims.batchCoord_eq_zero _ _ _ List.not_mem_nil, Nat.add_zero]
  match a with
  | ⟨0, _⟩ =>
    exact (show (rowGatherDims N R C wf).start (ix2 e c) idx 0 + (rowGatherDims N R C wf).offCoord (ix2 e c) 0
        = min (idx (ix2 e 0)).toInt.toNat (N - 1) by rw [rowGather_start_row, rowGather_off_row, Nat.add_zero])
  | ⟨1, _⟩ =>
    exact (show (rowGatherDims N R C wf).start (ix2 e c) idx 1 + (rowGatherDims N R C wf).offCoord (ix2 e c) 1
        = c.val by rw [rowGather_start_col, rowGather_off_col, Nat.zero_add])

end Gather

/-! ## The accumulating scatter of rows -/

section Scatter

/-- The dimension numbers of a scatter of whole rows: operand `[N, C]`, scatter indices `[R, 1]`, updates `[R, C]`;
    the row axis inserted and named by the scatter index, the column axis the update's window axis. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- Update entry `(e, c)` starts, on the row axis, at the signed row number `idx[e, 0]`. -/
theorem rowScatter_start_row (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ ([0] : List (Fin 2)) from List.mem_singleton.mpr rfl)]
  have hsi : (rowScatterDims N R C wf).siIdx (ix2 e c) ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at `0`. -/
theorem rowScatter_start_col (idx : IVec ⟨2, ![R, 1]⟩ w) (e : Fin R) (c : Fin C) :
    (rowScatterDims N R C wf).start (ix2 e c) idx 1 = 0 := by
  unfold ScatterDims.start
  rw [dif_neg (show (1 : Fin 2) ∉ ([0] : List (Fin 2)) from by decide)]

/-- The operand's axes that are not inserted: the column axis alone. -/
theorem rowScatter_mem_sKept (a : Fin 2) : a ∈ (rowScatterDims N R C wf).sKept ↔ a ∉ ([0] : List (Fin 2)) := by
  simp [ScatterDims.sKept, Shape.kept, List.mem_filter, List.mem_finRange]

/-- Its window coordinate is `0` on the row axis … -/
theorem rowScatter_window_row (e : Fin R) (c : Fin C) : (rowScatterDims N R C wf).window (ix2 e c) 0 = 0 := by
  unfold ScatterDims.window
  rw [dif_neg (fun h => ((rowScatter_mem_sKept wf 0).mp h) (List.mem_singleton.mpr rfl))]

/-- … and its own column on the column axis. -/
theorem rowScatter_window_col (e : Fin R) (c : Fin C) : (rowScatterDims N R C wf).window (ix2 e c) 1 = c.val := by
  unfold ScatterDims.window
  rw [dif_pos ((rowScatter_mem_sKept wf 1).mpr (by decide))]
  rfl

/-- WHERE AN UPDATE ENTRY LANDS: entry `(e, c)` lands on `(n, c')` exactly when its row number, read signed, is `n`
    and `c = c'`. -/
theorem rowScatter_lands (idx : IVec ⟨2, ![R, 1]⟩ w) (e : Fin R) (c : Fin C) (n : Fin N) (c' : Fin C) :
    (rowScatterDims N R C wf).resultIdx? (ix2 e c) idx = some (ix2 n c')
      ↔ (idx (ix2 e 0)).toInt = (n.val : Int) ∧ c = c' := by
  -- start plus window coordinate, axis by axis: the signed row number on the row axis, the column on the column axis
  have h0 : (rowScatterDims N R C wf).start (ix2 e c) idx 0 + ((rowScatterDims N R C wf).window (ix2 e c) 0 : Nat)
      = (idx (ix2 e 0)).toInt := by
    rw [rowScatter_start_row, rowScatter_window_row, Nat.cast_zero, Int.add_zero]
  have h1 : (rowScatterDims N R C wf).start (ix2 e c) idx 1 + ((rowScatterDims N R C wf).window (ix2 e c) 1 : Nat)
      = (c.val : Int) := by
    rw [rowScatter_start_col, rowScatter_window_col, Int.zero_add]
  have hN : (⟨2, ![N, C]⟩ : Shape).size 0 = N := rfl
  have hC : (⟨2, ![N, C]⟩ : Shape).size 1 = C := rfl
  unfold ScatterDims.resultIdx?
  constructor
  · intro h
    by_cases hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat)
    · rw [dif_pos hall] at h
      have heq := Option.some.inj h
      -- the landed index read on each axis
      have e0 : ((rowScatterDims N R C wf).start (ix2 e c) idx 0
          + ((rowScatterDims N R C wf).window (ix2 e c) 0 : Nat)).toNat = n.val :=
        congrArg (fun f => (f 0).val) heq
      have e1 : ((rowScatterDims N R C wf).start (ix2 e c) idx 1
          + ((rowScatterDims N R C wf).window (ix2 e c) 1 : Nat)).toNat = c'.val :=
        congrArg (fun f => (f 1).val) heq
      have p0 := (hall 0).1
      rw [h0] at e0 p0
      rw [h1] at e1
      refine ⟨by omega, Fin.ext (by omega)⟩
    · rw [dif_neg hall] at h
      exact absurd h (by simp)
  · rintro ⟨hi, rfl⟩
    have hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      rw [Fin.forall_fin_two, h0, h1, hN, hC, hi]
      have := n.isLt
      have := c.isLt
      omega
    rw [dif_pos hall]
    congr 1
    funext a
    refine Fin.ext ?_
    match a with
    | ⟨0, _⟩ =>
      exact (show ((rowScatterDims N R C wf).start (ix2 e c) idx 0
          + ((rowScatterDims N R C wf).window (ix2 e c) 0 : Nat)).toNat = n.val by rw [h0, hi]; exact Int.toNat_natCast _)
    | ⟨1, _⟩ =>
      exact (show ((rowScatterDims N R C wf).start (ix2 e c) idx 1
          + ((rowScatterDims N R C wf).window (ix2 e c) 1 : Nat)).toNat = c.val by rw [h1]; exact Int.toNat_natCast _)

/-- THE SCATTER READ AT `(n, c)`, on the extended reals: the operand's entry plus the sum, over the update rows whose
    row number is `n`, of their entries in column `c`. -/
theorem rowScatterAdd_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowScatterDims N R C wf) x idx upd (ix2 n c)
      = x (ix2 n c) + ∑ e : Fin R, if (idx (ix2 e 0)).toInt = (n.val : Int) then upd (ix2 e c) else 0 := by
  unfold Ideal.hostScatterAdd
  congr 1
  -- the filtered sum as a sum of conditionals, over the update's two coordinates
  rw [Finset.sum_filter, sum_idx2]
  refine Finset.sum_congr rfl (fun e _ => ?_)
  -- in update row `e` only column `c` can land on `(n, c)`
  rw [Finset.sum_eq_single c]
  · by_cases hi : (idx (ix2 e 0)).toInt = (n.val : Int)
    · rw [if_pos ((rowScatter_lands wf idx e c n c).mpr ⟨hi, rfl⟩), if_pos hi]
    · rw [if_neg (fun h => hi ((rowScatter_lands wf idx e c n c).mp h).1), if_neg hi]
  · intro b _ hb
    exact if_neg (fun h => hb ((rowScatter_lands wf idx e b n c).mp h).2)
  · intro h
    exact absurd (Finset.mem_univ c) h

end Scatter

end Idealize.ShloMosaic.RowTake

end
-- ==== Proof.RefValue.lean ====
/-
  The reference program's run with its two results named.
-/
import proofs.«122868_g81097572483172_cont_9to1c4b_262_11_alg».proof.Proof.Gen.ReferenceIdeal
import proofs.«122868_g81097572483172_cont_9to1c4b_262_11_alg».proof.Proof.EmbedSpec
import proofs.«122868_g81097572483172_cont_9to1c4b_262_11_alg».proof.Proof.LibRowTake
import Idealize.ShloMosaic.Lib.StableHlo.Run
import Idealize.ShloMosaic.PureOps.Ideal.Laws
import Idealize.ShloMosaic.Lib.Pipeline.Value

noncomputable section

open scoped BigOperators

namespace Cert.ReferenceIdeal.RefValue

open Idealize.ShloMosaic Idealize.ShloMosaic.ValueIdx Idealize.SL.Sem Cert.ReferenceIdeal Cert.ReferenceIdeal.Gen Cert.Embed
open Idealize.ShloMosaic.StableHlo

/-! ## The positional rows as the reference takes them

The reference reads the positional table through a general "take rows by number" routine, handed the row numbers
`0, 1, …, 6` in order. The routine wraps negative numbers by the table's height, marks the numbers that fall inside
`[0, 6]`, gathers the named rows (a number outside the table is clamped into it), and keeps a gathered row only where
the mark is set, writing a not-a-number fill elsewhere. On the numbers `0 … 6` nothing is negative, every mark is set
and no clamp moves a number: the routine returns the table itself. -/

/-- The row numbers asked for: entry `e` is the 32-bit word `e`. -/
abbrev rowWords : IVec S7 32 := iotaInDim S7 32 0

/-- The row numbers after wrapping: `e + 7` where `e` is negative, `e` itself elsewhere. -/
def wrapped : IVec S7 32 :=
  select (cmpi .slt rowWords (broadcastInDim S7 ![] bcast_S_S7 (constantI S_ 32 0#32)))
    (addi rowWords (broadcastInDim S7 ![] bcast_S_S7 (constantI S_ 32 7#32))) rowWords

/-- The wrapped numbers as a column `[7, 1]`: the start indices of the gather. -/
def startCol : IVec S7x1 32 := broadcastInDim S7x1 ![0] bcast_S7_S7x1_0 wrapped

/-- Per row number, whether it lies in `[0, 6]`: the conjunction over the column's one entry of `0 ≤ n` and `n ≤ 6`. -/
def inTable : IVec S7 1 :=
  Host.reduce IntOp.andi
    (andi (cmpi .sge startCol (broadcastInDim S7x1 ![] bcast_S_S7x1 (constantI S_ 32 0#32)))
      (cmpi .sle startCol (broadcastInDim S7x1 ![0, 1] bcast_S1x1_S7x1_0_1
        (broadcastInDim S1x1 ![1] bcast_S1_S1x1_1 (constantI S1 32 6#32)))))
    (constantI S_ 1 1#1) reducesTo_S7x1_S7_d1 h_S_

/-- The rows the routine returns for the table `p`: the gathered row where the number is in the table, the fill elsewhere. -/
def takenRows (p : FVec Ideal S7x2048 .f32) : FVec Ideal S7x2048 .f32 :=
  select (broadcastInDim S7x2048 ![0] bcast_S7_S7x2048_0 inTable)
    (Host.gather gather_S7x2048_S7x1_S7x2048_1_0_n_n_0_1_12048 p startCol)
    (broadcastInDim S7x2048 ![] bcast_S_S7x2048 (constant (F := Ideal) S_ .f32 0x7FC00000#32))

/-- No row number is negative, so wrapping leaves entry `e` the word `e`. -/
theorem wrapped_apply (e : Fin 7) : wrapped (ix1 e) = BitVec.ofNat 32 e.val := by
  have hneg : IntOp.cmpi .slt (BitVec.ofNat 32 e.val) 0#32 = 0#1 := by revert e; decide
  show Scalar.select (IntOp.cmpi .slt (BitVec.ofNat 32 e.val) 0#32) _ (BitVec.ofNat 32 e.val) = _
  rw [hneg, select_zero]

/-- The column's entry in row `e` is the word `e`. -/
theorem startCol_apply (e : Fin 7) (z : Fin 1) : startCol (ix2 e z) = BitVec.ofNat 32 e.val := by
  unfold startCol
  rw [broadcastInDim_apply ![0] bcast_S7_S7x1_0 wrapped (ix2 e z) (ix1 e) (fun a => by
    match a with
    | ⟨0, _⟩ => rfl)]
  exact wrapped_apply e

/-- A conjunction, taken along any axes from the bit `1`, of an array of bits that are all `1` is `1` everywhere. -/
theorem reduce_and_of_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi 1#1 1#1 = 1#1 from rfl]
    exact ih

/-- Every row number `0 … 6` lies in the table. -/
theorem inTable_apply (e : Fin 7) : inTable (ix1 e) = 1#1 := by
  unfold inTable
  refine reduce_and_of_all_one _ _ _ _ _ rfl (fun i => ?_)
  obtain ⟨a, z, rfl⟩ : ∃ (a : Fin 7) (z : Fin 1), i = ix2 a z := ⟨i 0, i 1, eq_ix2 i⟩
  show IntOp.andi (IntOp.cmpi .sge (startCol (ix2 a z)) 0#32) (IntOp.cmpi .sle (startCol (ix2 a z)) 6#32) = 1#1
  rw [startCol_apply]
  revert a; decide

/-- A word `e < 7`, read as a signed integer and then as a natural number, is `e`. -/
theorem word_toNat (e : Fin 7) : (BitVec.ofNat 32 e.val).toInt.toNat = e.val := by revert e; decide

/-- On the row numbers `0 … 6` the routine returns the table. -/
theorem takenRows_eq (p : FVec Ideal S7x2048 .f32) : takenRows p = p := by
  funext i
  obtain ⟨e, c, rfl⟩ : ∃ (e : Fin 7) (c : Fin 2048), i = ix2 e c := ⟨i 0, i 1, eq_ix2 i⟩
  unfold takenRows
  rw [select_apply, broadcastInDim_apply ![0] bcast_S7_S7x2048_0 inTable (ix2 e c) (ix1 e) (fun a => by
      match a with
      | ⟨0, _⟩ => rfl),
    inTable_apply, select_one]
  have hd : gather_S7x2048_S7x1_S7x2048_1_0_n_n_0_1_12048 = RowTake.rowGatherDims 7 7 2048 gather_S7x2048_S7x1_S7x2048_1_0_n_n_0_1_12048_wf := rfl
  rw [hd, RowTake.rowGather_apply (by decide) gather_S7x2048_S7x1_S7x2048_1_0_n_n_0_1_12048_wf p startCol e c]
  refine congrArg p (congrArg (fun r => ix2 r c) (Fin.ext ?_))
  show min (startCol (ix2 e 0)).toInt.toNat (7 - 1) = e.val
  rw [startCol_apply, word_toNat]
  have := e.isLt
  omega

/-! ## The three arrays the reference adds, read at an entry -/

/-- A `[7, 2048]` table laid over the batch axis, `[7, 2048] → [1, 7, 2048] → [4096, 7, 2048]`, reads at
    `(a, l, d)` its own entry `(l, d)`. -/
theorem rows_over_batch (q : FVec Ideal S7x2048 .f32) (a : Fin 4096) (l : Fin 7) (d : Fin 2048) :
    broadcastInDim S4096x7x2048 ![0, 1, 2] bcast_S1x7x2048_S4096x7x2048_0_1_2
      (broadcastInDim S1x7x2048 ![1, 2] bcast_S7x2048_S1x7x2048_1_2 q) (ix3 a l d) = q (ix2 l d) := by
  rw [broadcastInDim_apply ![0, 1, 2] bcast_S1x7x2048_S4096x7x2048_0_1_2 _ (ix3 a l d) (ix3 (0 : Fin 1) l d) (fun b => by
      match b with
      | ⟨0, _⟩ => rfl
      | ⟨1, _⟩ => rfl
      | ⟨2, _⟩ => rfl),
    broadcastInDim_apply ![1, 2] bcast_S7x2048_S1x7x2048_1_2 q (ix3 (0 : Fin 1) l d) (ix2 l d) (fun b => by
      match b with
      | ⟨0, _⟩ => rfl
      | ⟨1, _⟩ => rfl)]

/-- A `[2048]` vector laid over batch and position, `[2048] → [1, 1, 2048] → [4096, 7, 2048]`, reads at `(a, l, d)`
    its own entry `d`. -/
theorem channels_over_rest (v : FVec Ideal S2048 .f32) (a : Fin 4096) (l : Fin 7) (d : Fin 2048) :
    broadcastInDim S4096x7x2048 ![0, 1, 2] bcast_S1x1x2048_S4096x7x2048_0_1_2
      (broadcastInDim S1x1x2048 ![2] bcast_S2048_S1x1x2048_2 v) (ix3 a l d) = v (ix1 d) := by
  rw [broadcastInDim_apply ![0, 1, 2] bcast_S1x1x2048_S4096x7x2048_0_1_2 _ (ix3 a l d) (ix3 (0 : Fin 1) (0 : Fin 1) d) (fun b => by
      match b with
      | ⟨0, _⟩ => rfl
      | ⟨1, _⟩ => rfl
      | ⟨2, _⟩ => rfl),
    broadcastInDim_apply ![2] bcast_S2048_S1x1x2048_2 v (ix3 (0 : Fin 1) (0 : Fin 1) d) (ix1 d) (fun b => by
      match b with
      | ⟨0, _⟩ => rfl)]

/-! ### The projection: which entries of the two operands meet at a result entry

The contraction pairs axis 2 of the tokens with axis 0 of the weights; the tokens' axes 0 and 1 and the weights' axis 1
are, in that order, the result's three axes. One statement per operand axis. -/

theorem tokens_axis0 (i : S4096x7x2048.Idx) (q : dot_S4096x7x512_S512x2048_S4096x7x2048_2_0_01_1_n_n.contr.Idx) : (dot_S4096x7x512_S512x2048_S4096x7x2048_2_0_01_1_n_n.lhsIdx i q 0).val = (i 0).val := by
  unfold DotDims.lhsIdx
  rw [dif_neg (show ¬(0 : Fin S4096x7x512.rank) ∈ dot_S4096x7x512_S512x2048_S4096x7x2048_2_0_01_1_n_n.lhsBatch by decide),
    dif_pos (show (0 : Fin S4096x7x512.rank) ∈ dot_S4096x7x512_S512x2048_S4096x7x2048_2_0_01_1_n_n.lhsNonContracting by decide)]
  rfl

theorem tokens_axis1 (i : S4096x7x2048.Idx) (q : dot_S4096x7x512_S512x2048_S4096x7x2048_2_0_01_1_n_n.contr.Idx) : (dot_S4096x7x512_S512x2048_S4096x7x2048_2_0_01_1_n_n.lhsIdx i q 1).val = (i 1).val := by
  unfold DotDims.lhsIdx
  rw [dif_neg (show ¬(1 : Fin S4096x7x512.rank) ∈ dot_S4096x7x512_S512x2048_S4096x7x2048_2_0_01_1_n_n.lhsBatch by decide),
    dif_pos (show (1 : Fin S4096x7x512.rank) ∈ dot_S4096x7x512_S512x2048_S4096x7x2048_2_0_01_1_n_n.lhsNonContracting by decide)]
  rfl

theorem tokens_axis2 (i : S4096x7x2048.Idx) (q : dot_S4096x7x512_S512x2048_S4096x7x2048_2_0_01_1_n_n.contr.Idx) : (dot_S4096x7x512_S512x2048_S4096x7x2048_2_0_01_1_n_n.lhsIdx i q 2).val = (q ⟨0, by decide⟩).val :=
  dot_S4096x7x512_S512x2048_S4096x7x2048_2_0_01_1_n_n.lhsIdx_val_of_single rfl i q

theorem weights_axis0 (i : S4096x7x2048.Idx) (q : dot_S4096x7x512_S512x2048_S4096x7x2048_2_0_01_1_n_n.contr.Idx) : (dot_S4096x7x512_S512x2048_S4096x7x2048_2_0_01_1_n_n.rhsIdx i q 0).val = (q ⟨0, by decide⟩).val :=
  dot_S4096x7x512_S512x2048_S4096x7x2048_2_0_01_1_n_n.rhsIdx_val_of_single rfl i q

theorem weights_axis1 (i : S4096x7x2048.Idx) (q : dot_S4096x7x512_S512x2048_S4096x7x2048_2_0_01_1_n_n.contr.Idx) : (dot_S4096x7x512_S512x2048_S4096x7x2048_2_0_01_1_n_n.rhsIdx i q 1).val = (i 2).val := by
  unfold DotDims.rhsIdx
  rw [dif_neg (show ¬(1 : Fin S512x2048.rank) ∈ dot_S4096x7x512_S512x2048_S4096x7x2048_2_0_01_1_n_n.rhsBatch by decide),
    dif_pos (show (1 : Fin S512x2048.rank) ∈ dot_S4096x7x512_S512x2048_S4096x7x2048_2_0_01_1_n_n.rhsNonContracting by decide)]
  rfl

/-- The projection at `(a, l, d)`: the sum over the 512 input channels of token entry times weight entry. -/
theorem projection_apply (x : FVec Ideal S4096x7x512 .f32) (w : FVec Ideal S512x2048 .f32) (a : Fin 4096) (l : Fin 7) (d : Fin 2048) :
    Host.dotGeneral (F := Ideal) dot_S4096x7x512_S512x2048_S4096x7x2048_2_0_01_1_n_n none x w (ix3 a l d) = ∑ k : Fin 512, x (ix3 a l k) * w (ix2 k d) := by
  simp only [Host.dotGeneral]
  rw [Ideal.dotGeneral_apply, ← Equiv.sum_comp (contrEquiv1 dot_S4096x7x512_S512x2048_S4096x7x2048_2_0_01_1_n_n 512 rfl rfl).symm]
  refine Finset.sum_congr rfl fun k _ => ?_
  have hk := contrEquiv1_symm_val dot_S4096x7x512_S512x2048_S4096x7x2048_2_0_01_1_n_n 512 rfl rfl k
  have el : dot_S4096x7x512_S512x2048_S4096x7x2048_2_0_01_1_n_n.lhsIdx (ix3 a l d) ((contrEquiv1 dot_S4096x7x512_S512x2048_S4096x7x2048_2_0_01_1_n_n 512 rfl rfl).symm k) = ix3 a l k := funext fun b => Fin.ext (by
    match b with
    | ⟨0, _⟩ => exact tokens_axis0 _ _
    | ⟨1, _⟩ => exact tokens_axis1 _ _
    | ⟨2, _⟩ => exact (tokens_axis2 _ _).trans hk)
  have er : dot_S4096x7x512_S512x2048_S4096x7x2048_2_0_01_1_n_n.rhsIdx (ix3 a l d) ((contrEquiv1 dot_S4096x7x512_S512x2048_S4096x7x2048_2_0_01_1_n_n 512 rfl rfl).symm k) = ix2 k d := funext fun b => Fin.ext (by
    match b with
    | ⟨0, _⟩ => exact (weights_axis0 _ _).trans hk
    | ⟨1, _⟩ => exact weights_axis1 _ _)
  rw [el, er]

/-! ## The reference's two results as functions of its arguments -/

/-- The first result as the reference composes it: (projection + bias laid over batch and position) + the taken
    positional rows laid over the batch. -/
def refOut (x : FVec Ideal S4096x7x512 .f32) (w : FVec Ideal S512x2048 .f32) (b : FVec Ideal S2048 .f32)
    (p : FVec Ideal S7x2048 .f32) : FVec Ideal S4096x7x2048 .f32 :=
  addf
    (addf (Host.dotGeneral (F := Ideal) dot_S4096x7x512_S512x2048_S4096x7x2048_2_0_01_1_n_n none x w)
      (broadcastInDim S4096x7x2048 ![0, 1, 2] bcast_S1x1x2048_S4096x7x2048_0_1_2
        (broadcastInDim S1x1x2048 ![2] bcast_S2048_S1x1x2048_2 b)))
    (broadcastInDim S4096x7x2048 ![0, 1, 2] bcast_S1x7x2048_S4096x7x2048_0_1_2
      (broadcastInDim S1x7x2048 ![1, 2] bcast_S7x2048_S1x7x2048_1_2 (takenRows p)))

/-- It is the embedding layer's value. -/
theorem refOut_eq (x : FVec Ideal S4096x7x512 .f32) (w : FVec Ideal S512x2048 .f32) (b : FVec Ideal S2048 .f32)
    (p : FVec Ideal S7x2048 .f32) : refOut x w b p = embed x w b p := by
  funext i
  obtain ⟨a, l, d, rfl⟩ : ∃ (a : Fin 4096) (l : Fin 7) (d : Fin 2048), i = ix3 a l d := ⟨i 0, i 1, i 2, eq_ix3 i⟩
  unfold refOut
  rw [addf_apply, addf_apply, projection_apply, channels_over_rest, rows_over_batch, takenRows_eq, embed_ix3]
  rfl

/-- The second result, a scalar `true` laid over batch and position, is the all-kept mask. -/
theorem refMask_eq : broadcastInDim S4096x7 ![] bcast_S_S4096x7 (constantI S_ 1 1#1) = ones := by
  funext i
  rfl

/-! ## The reference's run -/

section Line
variable {F : FTy → Type} [FloatOps F]

/-- @main's 33 operations in order: the row numbers `0 … 6`; the 23 operations of the take routine over that call's
    arrays (the wrap's one select in its place among them); then @main's own nine: the taken rows laid over a leading unit
    axis, the mask's scalar and its spread, the projection, the bias spread in two steps, the first sum, the rows spread over
    the batch, the second sum. -/
abbrev ops : List (HloOp τ sig (Elt F)) :=
  [ nullary main_v0 (iotaInDim S7 32 0),
    TRef.nullary main_call0.c (constantI S_ 32 0#32),
    TRef.unary main_call0.c main_call0.v0 (broadcastInDim S7 ![] bcast_S_S7),
    TRef.binary (.of main_v0) main_call0.v0 main_call0.v1 (cmpi .slt),
    TRef.nullary main_call0.c_0 (constantI S_ 32 7#32),
    TRef.unary main_call0.c_0 main_call0.v2 (broadcastInDim S7 ![] bcast_S_S7),
    TRef.binary (.of main_v0) main_call0.v2 main_call0.v3 addi,
    TRef.ternary main_call0.v1 main_call0.v3 (.of main_v0) main_call0.call0.v0 select,
    TRef.unary main_call0.call0.v0 main_call0.v5 (broadcastInDim S7x1 ![0] bcast_S7_S7x1_0),
    TRef.nullary main_call0.c_1 (constantI S1 32 6#32),
    TRef.nullary main_call0.c_2 (constantI S_ 32 0#32),
    TRef.unary main_call0.c_2 main_call0.v6 (broadcastInDim S7x1 ![] bcast_S_S7x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S7x1 ![0, 1] bcast_S1x1_S7x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S7x1_S7_d1 h_S_),
    TRef.binary (.of main_arg3) main_call0.v5 main_call0.v13 (fun x i => Host.gather gather_S7x2048_S7x1_S7x2048_1_0_n_n_0_1_12048 x i),
    TRef.unary main_call0.v12 main_call0.v14 (broadcastInDim S7x2048 ![0] bcast_S7_S7x2048_0),
    TRef.nullary main_call0.cst (constant S_ .f32 0x7FC00000#32),
    TRef.unary main_call0.cst main_call0.v15 (broadcastInDim S7x2048 ![] bcast_S_S7x2048),
    TRef.ternary main_call0.v14 main_call0.v13 main_call0.v15 main_call0.v16 select,
    unary main_v1 main_v2 (broadcastInDim S1x7x2048 ![1, 2] bcast_S7x2048_S1x7x2048_1_2 : (⟨S7x2048, .f32⟩ : BufTy).Contents (Elt F) → (⟨S1x7x2048, .f32⟩ : BufTy).Contents (Elt F)),
    nullary main_c (constantI S_ 1 1#1),
    unary main_c main_v3 (broadcastInDim S4096x7 ![] bcast_S_S4096x7 : (⟨S_, .i1⟩ : BufTy).Contents (Elt F) → (⟨S4096x7, .i1⟩ : BufTy).Contents (Elt F)),
    binary main_arg0 main_arg1 main_v4 ((fun l r => Host.dotGeneral dot_S4096x7x512_S512x2048_S4096x7x2048_2_0_01_1_n_n none l r) : (⟨S4096x7x512, .f32⟩ : BufTy).Contents (Elt F) → (⟨S512x2048, .f32⟩ : BufTy).Contents (Elt F) → (⟨S4096x7x2048, .f32⟩ : BufTy).Contents (Elt F)),
    unary main_arg2 main_v5 (broadcastInDim S1x1x2048 ![2] bcast_S2048_S1x1x2048_2 : (⟨S2048, .f32⟩ : BufTy).Contents (Elt F) → (⟨S1x1x2048, .f32⟩ : BufTy).Contents (Elt F)),
    unary main_v5 main_v6 (broadcastInDim S4096x7x2048 ![0, 1, 2] bcast_S1x1x2048_S4096x7x2048_0_1_2 : (⟨S1x1x2048, .f32⟩ : BufTy).Contents (Elt F) → (⟨S4096x7x2048, .f32⟩ : BufTy).Contents (Elt F)),
    binary main_v4 main_v6 main_v7 (addf : (⟨S4096x7x2048, .f32⟩ : BufTy).Contents (Elt F) → (⟨S4096x7x2048, .f32⟩ : BufTy).Contents (Elt F) → (⟨S4096x7x2048, .f32⟩ : BufTy).Contents (Elt F)),
    unary main_v2 main_v8 (broadcastInDim S4096x7x2048 ![0, 1, 2] bcast_S1x7x2048_S4096x7x2048_0_1_2 : (⟨S1x7x2048, .f32⟩ : BufTy).Contents (Elt F) → (⟨S4096x7x2048, .f32⟩ : BufTy).Contents (Elt F)),
    binary main_v7 main_v8 main_v9 (addf : (⟨S4096x7x2048, .f32⟩ : BufTy).Contents (Elt F) → (⟨S4096x7x2048, .f32⟩ : BufTy).Contents (Elt F) → (⟨S4096x7x2048, .f32⟩ : BufTy).Contents (Elt F)) ]

set_option maxRecDepth 1024 in
/-- @main is that straight line: the two routines' bodies stand at their calls, and sequencing is reassociated. -/
theorem main_eq (c : Dev nD) : main (F := F) c = seq ops := by
  simp only [main, fn_take.body, fn_where.body, seq, bind_assoc, pure_bind]

/-- No array of the signature is scoped … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation touches arrays of the core only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., nullary_bufs_sub .., unary_bufs_sub .., binary_bufs_sub .., unary_bufs_sub .., unary_bufs_sub ..,
    binary_bufs_sub .., unary_bufs_sub .., binary_bufs_sub ..⟩

/-- From any memory with zero counters every weakly fair execution of @main terminates, and every array ends at the fold of
    the operations' results over what the launch put there. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Line

/-! ## What the line leaves in the two result arrays and in the arguments -/

attribute [local irreducible] Host.reduce Host.gather in
set_option maxRecDepth 8192 in
/-- The fold at the first result array is `refOut` of the four arguments' launch contents: each operation's result is
    read at the array it writes and passed over at every other, down to the arguments, which no operation writes. -/
theorem out_eq (V : Valuation τ sig (Elt Ideal)) :
    after (ops (F := Ideal)) V (Proc.devRef .tc main_v9)
      = refOut (V (Proc.devRef .tc main_arg0)) (V (Proc.devRef .tc main_arg1)) (V (Proc.devRef .tc main_arg2))
          (V (Proc.devRef .tc main_arg3)) := by
  simp only [after_cons, after_nil]
  rfl

/-- The fold at the second result array is the all-kept mask. -/
theorem mask_eq (V : Valuation τ sig (Elt Ideal)) :
    after (ops (F := Ideal)) V (Proc.devRef .tc main_v3) = ones := by
  simp only [after_cons, after_nil]
  exact refMask_eq

/-- No operation writes an argument: each keeps its launch contents. -/
theorem arg0_eq (V : Valuation τ sig (Elt Ideal)) :
    after (ops (F := Ideal)) V (Proc.devRef .tc main_arg0) = V (Proc.devRef .tc main_arg0) := by
  simp only [after_cons, after_nil]
  rfl

theorem arg1_eq (V : Valuation τ sig (Elt Ideal)) :
    after (ops (F := Ideal)) V (Proc.devRef .tc main_arg1) = V (Proc.devRef .tc main_arg1) := by
  simp only [after_cons, after_nil]
  rfl

theorem arg2_eq (V : Valuation τ sig (Elt Ideal)) :
    after (ops (F := Ideal)) V (Proc.devRef .tc main_arg2) = V (Proc.devRef .tc main_arg2) := by
  simp only [after_cons, after_nil]
  rfl

theorem arg3_eq (V : Valuation τ sig (Elt Ideal)) :
    after (ops (F := Ideal)) V (Proc.devRef .tc main_arg3) = V (Proc.devRef .tc main_arg3) := by
  simp only [after_cons, after_nil]
  rfl

/-- Every weakly fair execution of the reference ends with the layer's result in its first result array, the all-kept
    mask in its second, and its four arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
        = embed (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v3) = ones
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c =>
      ⟨((h c main_v9).trans (out_eq _)).trans (refOut_eq _ _ _ _),
        (h c main_v3).trans (mask_eq _),
        (h c main_arg0).trans (arg0_eq _),
        (h c main_arg1).trans (arg1_eq _),
        (h c main_arg2).trans (arg2_eq _),
        (h c main_arg3).trans (arg3_eq _)⟩)
    (run_line m ρ)

end Cert.ReferenceIdeal.RefValue

end
-- ==== Proof.lean ====
/-
  A BERT-style embedding layer, kernel against reference, over the extended reals.

  Both programs compute, for batch entry `a`, position `l` and channel `d`, the token projection
  `∑ k, x[a, l, k] · w[k, d]` plus the bias `b[d]` plus the positional row `p[l, d]` (Proof/EmbedSpec.lean: `embed`),
  and an all-kept mask. The kernel works position first: the host exchanges the two leading axes of the activations,
  adds the bias to the positional table, and after the region exchanges the axes of the result back; each grid step
  multiplies a block of 512 rows by the whole weight matrix and adds one row of the prepared table. The reference
  takes the positional rows by a gather at the positions `0 … 6`, every one of them in range, and adds bias and rows
  to one whole product. The two groupings of the three summands agree because addition of extended reals is
  commutative and associative; no finiteness of the inputs is used.

  The kernel's frames are the generated ones; the reference's frame is its run with the results dropped; the
  idealization rewrote nothing, so `preserves` is `True`.
-/
import proofs.«122868_g81097572483172_cont_9to1c4b_262_11_alg».proof.Defs
import proofs.«122868_g81097572483172_cont_9to1c4b_262_11_alg».proof.Proof.Gen.Kernel.Frame
import proofs.«122868_g81097572483172_cont_9to1c4b_262_11_alg».proof.Proof.Gen.KernelIdeal.Frame
import proofs.«122868_g81097572483172_cont_9to1c4b_262_11_alg».proof.Proof.Gen.Pre_finite_inputs
import proofs.«122868_g81097572483172_cont_9to1c4b_262_11_alg».proof.Proof.KernelRun
import proofs.«122868_g81097572483172_cont_9to1c4b_262_11_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its named run with the two results dropped. -/
theorem frame_referenceIdeal : Cert.frame_ReferenceIdeal := fun m ρ _ =>
  (θ_run Cert.ReferenceIdeal.defs _ _).mono (fun _ h c => (h c).2.2) (Cert.ReferenceIdeal.RefValue.run m ρ)

/-- Both runs end with the same function `embed` of their arguments, which agree, and with the same mask. -/
theorem algebraic : Cert.algebraic_KernelIdeal_ReferenceIdeal := by
  intro m ρ m' ρ' _ hagree
  refine ⟨_, _, Cert.KernelIdeal.KernelRun.run m ρ, ?_⟩
  refine (θ_run Cert.ReferenceIdeal.defs _ _).mono (fun _ h c => ?_) (Cert.ReferenceIdeal.RefValue.run m' ρ')
  obtain ⟨h9, h3, k0, k1, k2, k3⟩ := h c
  obtain ⟨e0, e1, e2, e3⟩ := hagree c
  refine ⟨?_, h3, k0, k1, k2, k3⟩
  rw [h9, e0, e1, e2, e3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
